-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S800000 : Shape := ⟨1, ![800000]⟩
abbrev S100x128 : Shape := ⟨2, ![100, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S128x47 .f32) (main_arg11 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg10
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg11
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x47 .f32) (main_arg10 : FVec F S128x47 .f32) (main_arg11 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x100 .f32) (main_arg1 : IVec S800000 32) (main_arg2 : IVec S800000 32) (main_arg3 : FVec F S100x128 .f32) (main_arg4 : FVec F S100x128 .f32) (main_arg5 : FVec F S128 .f32) (main_arg6 : FVec F S128x128 .f32) (main_arg7 : FVec F S128x128 .f32) (main_arg8 : FVec F S128 .f32) (main_arg9 : FVec F S128x47 .f32) (main_arg10 : FVec F S128x47 .f32) (main_arg11 : FVec F S47 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x128 .f32 := Host.absf main_arg3
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S100x128 .f32 := Host.absf main_arg4
  let main_cst_2 : FVec F S_ .f32 := constant S_ .f32 0x7F800000#32
  let main_v10 : FVec F S100x128 .f32 := broadcastInDim S100x128 ![] bcast_S_S100x128 main_cst_2
  let main_v11 : IVec S100x128 1 := cmpf .olt main_v9 main_v10
  let main_c_3 : IVec S_ 1 := constantI S_ 1 1#1
  let main_v12 : IVec S_ 1 := (fun x v => Host.reduce IntOp.andi x v reducesTo_S100x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x100 : Shape := ⟨2, ![100000, 100]⟩
abbrev S800000 : Shape := ⟨1, ![800000]⟩
abbrev S100x128 : Shape := ⟨2, ![100, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S_ : Shape := ⟨0, ![]⟩
abbrev S100000 : Shape := ⟨1, ![100000]⟩
abbrev S800000x1 : Shape := ⟨2, ![800000, 1]⟩
abbrev S800000x100 : Shape := ⟨2, ![800000, 100]⟩
abbrev S100000x1 : Shape := ⟨2, ![100000, 1]⟩
abbrev S100000x128 : Shape := ⟨2, ![100000, 128]⟩
abbrev S2000x100 : Shape := ⟨2, ![2000, 100]⟩
abbrev S2000x128 : Shape := ⟨2, ![2000, 128]⟩
abbrev S1x128 : Shape := ⟨2, ![1, 128]⟩
abbrev S800000x128 : Shape := ⟨2, ![800000, 128]⟩
abbrev S100000x47 : Shape := ⟨2, ![100000, 47]⟩
abbrev S2000x47 : Shape := ⟨2, ![2000, 47]⟩
abbrev S1x47 : Shape := ⟨2, ![1, 47]⟩

abbrev nBuf : Space → Nat
  | .hbm => 90
  | .vmem => 27
  | .smem => 0
  | _ => 0

abbrev bufTy : (tb : Table) → Fin (tcTables nBuf tb) → BufTy
  | .hbm, ⟨0, _⟩ => ⟨S100000x100, .f32⟩
  | .hbm, ⟨1, _⟩ => ⟨S800000, .i32⟩
  | .hbm, ⟨2, _⟩ => ⟨S800000, .i32⟩
  | .hbm, ⟨3, _⟩ => ⟨S100x128, .f32⟩
  | .hbm, ⟨4, _⟩ => ⟨S100x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S100000, .f32⟩
  | .hbm, ⟨16, _⟩ => ⟨S800000x1, .i32⟩
  | .hbm, ⟨17, _⟩ => ⟨S100000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x100, .f32⟩
  | .hbm, ⟨27, _⟩ => ⟨S_, .f32⟩
  | .hbm, ⟨28, _⟩ => ⟨S100000x100, .f32⟩
  | .hbm, ⟨29, _⟩ => ⟨S800000x1, .i32⟩
  | .hbm, ⟨30, _⟩ => ⟨S100000x100, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x100, .f32⟩
  | .hbm, ⟨36, _⟩ => ⟨S100000x100, .f32⟩
  | .hbm, ⟨37, _⟩ => ⟨S100000x128, .f32⟩
  | .hbm, ⟨38, _⟩ => ⟨S_, .f32⟩
  | .hbm, ⟨39, _⟩ => ⟨S800000, .f32⟩
  | .hbm, ⟨40, _⟩ => ⟨S_, .f32⟩
  | .hbm, ⟨41, _⟩ => ⟨S100000, .f32⟩
  | .hbm, ⟨42, _⟩ => ⟨S800000x1, .i32⟩
  | .hbm, ⟨43, _⟩ => ⟨S100000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S100000x128, .f32⟩
  | .hbm, ⟨55, _⟩ => ⟨S800000x1, .i32⟩
  | .hbm, ⟨56, _⟩ => ⟨S100000x128, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S100000, .f32⟩
  | .hbm, ⟨68, _⟩ => ⟨S800000x1, .i32⟩
  | .hbm, ⟨69, _⟩ => ⟨S100000, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S100000x128, .f32⟩
  | .hbm, ⟨81, _⟩ => ⟨S800000x1, .i32⟩
  | .hbm, ⟨82, _⟩ => ⟨S100000x128, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x128, .f32⟩
  | .hbm, ⟨88, _⟩ => ⟨S100000x128, .f32⟩
  | .hbm, ⟨89, _⟩ => ⟨S100000x47, .f32⟩
  | .local _ .vmem, ⟨0, _⟩ => ⟨S2000x100, .f32⟩
  | .local _ .vmem, ⟨1, _⟩ => ⟨S2000x100, .f32⟩
  | .local _ .vmem, ⟨2, _⟩ => ⟨S2000x100, .f32⟩
  | .local _ .vmem, ⟨3, _⟩ => ⟨S2000x100, .f32⟩
  | .local _ .vmem, ⟨4, _⟩ => ⟨S100x128, .f32⟩
  | .local _ .vmem, ⟨5, _⟩ => ⟨S100x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x47, .f32⟩
  | .local _ .vmem, ⟨23, _⟩ => ⟨S128x47, .f32⟩
  | .local _ .vmem, ⟨24, _⟩ => ⟨S47, .f32⟩
  | .local _ .vmem, ⟨25, _⟩ => ⟨S2000x47, .f32⟩
  | .local _ .vmem, ⟨26, _⟩ => ⟨S2000x47, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_cst_11 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_12 : Ref sig .tc := ⟨.hbm, 70, rfl⟩
abbrev main_v44 : Ref sig .tc := ⟨.hbm, 71, rfl⟩
abbrev main_v45 : Ref sig .tc := ⟨.hbm, 72, rfl⟩
abbrev main_c_13 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_14 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_15 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x100 : S_.BroadcastsInDim S100000x100 (![] : Fin 0 → Fin S100000x100.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  inb_S2000x100_S2000x100_0_0 : ∀ a, (![0, 0] : Fin 2 → Nat) a + S2000x100.size a ≤ S2000x100.size a
  h_S2000x100 : 0 < S2000x100.numel
  bitsLt_bf16_f32 : FTy.bits .bf16 < FTy.bits .f32
  shapeCasts_S2000x100_S2000x100 : S2000x100.ShapeCasts S2000x100
  inb_S100x128_S100x128_0_0 : ∀ a, (![0, 0] : Fin 2 → Nat) a + S100x128.size a ≤ S100x128.size a
  h_S100x128 : 0 < S100x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x47_S128x47_0_0 : ∀ a, (![0, 0] : Fin 2 → Nat) a + S128x47.size a ≤ S128x47.size a
  h_S128x47 : 0 < S128x47.numel
  inb_S47_S47_0 : ∀ a, (![0] : Fin 1 → Nat) a + S47.size a ≤ S47.size a
  h_S47 : 0 < S47.numel
  shapeCasts_S47_S1x47 : S47.ShapeCasts S1x47
  broadcasts_S1x47_S2000x47 : S1x47.Broadcasts S2000x47
  inb_S2000x47_S2000x47_0_0 : ∀ a, (![0, 0] : Fin 2 → Nat) a + S2000x47.size a ≤ S2000x47.size a
  h_S2000x47 : 0 < S2000x47.numel
  scatter_S100000_S800000x1_S800000_n_0_0_1_wf : ScatterDims.WF S100000 S800000x1 S800000 [] [0] [0] 1
  gather_S100000x100_S800000x1_S800000x100_1_0_n_n_0_1_1100_wf : GatherDims.WF S100000x100 S800000x1 S800000x100 [1] [0] [] [0] [] 1 ![1, 100]
  scatter_S100000x100_S800000x1_S800000x100_1_0_0_1_wf : ScatterDims.WF S100000x100 S800000x1 S800000x100 [1] [0] [0] 1
  dot_S2000x100_S100x128_S2000x128_1_0_0_1_n_n_wf : DotDims.WF S2000x100 S100x128 S2000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x128_S2000x128_1_0_0_1_n_n_wf : DotDims.WF S2000x128 S128x128 S2000x128 [1] [0] [0] [1] [] []
  dot_S2000x128_S128x47_S2000x47_1_0_0_1_n_n_wf : DotDims.WF S2000x128 S128x47 S2000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x100.size a ≤ S100000x100.size a
  hwx0_0 : ∀ i : grid0.Coords, EltTy.bits .f32 = 32 ∨ (Rect.block (s := S100000x100) S2000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x100.size a ≤ S100000x100.size a
  hwx0_1 : ∀ i : grid0.Coords, EltTy.bits .f32 = 32 ∨ (Rect.block (s := S100000x100) S2000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x128.size a ≤ S100x128.size a
  hwx0_2 : ∀ i : grid0.Coords, EltTy.bits .f32 = 32 ∨ (Rect.block (s := S100x128) S100x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x128.size a ≤ S100x128.size a
  hwx0_3 : ∀ i : grid0.Coords, EltTy.bits .f32 = 32 ∨ (Rect.block (s := S100x128) S100x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S47.size a ≤ S47.size a
  hwx2_4 : ∀ i : grid2.Coords, EltTy.bits .f32 = 32 ∨ (Rect.block (s := S47) S47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x47.size a ≤ S100000x47.size a
  hwx2_5 : ∀ i : grid2.Coords, EltTy.bits .f32 = 32 ∨ (Rect.block (s := S100000x47) S2000x47.size (cc2_transform_5 i) (hinb2_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x100_S800000x1_S800000x100_1_0_n_n_0_1_1100 : GatherDims S100000x100 S800000x1 S800000x100 where
  offsetDims := [1]
  collapsedSliceDims := [0]
  operandBatchingDims := []
  startIndicesBatchingDims := []
  startIndexMap := [0]
  indexVectorDim := 1
  sliceSizes := ![1, 100]
  wf := gather_S100000x100_S800000x1_S800000x100_1_0_n_n_0_1_1100_wf
def scatter_S100000x100_S800000x1_S800000x100_1_0_0_1 : ScatterDims S100000x100 S800000x1 S800000x100 where
  updateWindowDims := [1]
  insertedWindowDims := [0]
  scatterDimsToOperandDims := [0]
  indexVectorDim := 1
  wf := scatter_S100000x100_S800000x1_S800000x100_1_0_0_1_wf
def dot_S2000x100_S100x128_S2000x128_1_0_0_1_n_n : DotDims S2000x100 S100x128 S2000x128 where
  lhsContracting := [1]
  rhsContracting := [0]
  lhsNonContracting := [0]
  rhsNonContracting := [1]
  lhsBatch := []
  rhsBatch := []
  wf := dot_S2000x100_S100x128_S2000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x47_S2000x47_1_0_0_1_n_n : DotDims S2000x128 S128x47 S2000x47 where
  lhsContracting := [1]
  rhsContracting := [0]
  lhsNonContracting := [0]
  rhsNonContracting := [1]
  lhsBatch := []
  rhsBatch := []
  wf := dot_S2000x128_S128x47_S2000x47_1_0_0_1_n_n_wf

abbrev win0_0 : Pipeline.Window sig grid0 :=
  Pipeline.Window.ofSpec (Memref.whole main_arg0) S2000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S100x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S100x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S2000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x100 : Shape := ⟨2, ![100000, 100]⟩
abbrev S800000 : Shape := ⟨1, ![800000]⟩
abbrev S100x128 : Shape := ⟨2, ![100, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S_ : Shape := ⟨0, ![]⟩
abbrev S100000 : Shape := ⟨1, ![100000]⟩
abbrev S800000x1 : Shape := ⟨2, ![800000, 1]⟩
abbrev S800000x100 : Shape := ⟨2, ![800000, 100]⟩
abbrev S100000x1 : Shape := ⟨2, ![100000, 1]⟩
abbrev S100000x128 : Shape := ⟨2, ![100000, 128]⟩
abbrev S1x128 : Shape := ⟨2, ![1, 128]⟩
abbrev S800000x128 : Shape := ⟨2, ![800000, 128]⟩
abbrev S100000x47 : Shape := ⟨2, ![100000, 47]⟩
abbrev S1x47 : Shape := ⟨2, ![1, 47]⟩

abbrev nBuf : Space → Nat
  | .hbm => 111
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S800000, .i32⟩
  | .hbm, ⟨2, _⟩ => ⟨S800000, .i32⟩
  | .hbm, ⟨3, _⟩ => ⟨S100x128, .f32⟩
  | .hbm, ⟨4, _⟩ => ⟨S100x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S100000, .f32⟩
  | .hbm, ⟨16, _⟩ => ⟨S800000x1, .i32⟩
  | .hbm, ⟨17, _⟩ => ⟨S100000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x100, .f32⟩
  | .hbm, ⟨27, _⟩ => ⟨S_, .f32⟩
  | .hbm, ⟨28, _⟩ => ⟨S100000x100, .f32⟩
  | .hbm, ⟨29, _⟩ => ⟨S800000x1, .i32⟩
  | .hbm, ⟨30, _⟩ => ⟨S100000x100, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x100, .f32⟩
  | .hbm, ⟨36, _⟩ => ⟨S100000x100, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S100000, .f32⟩
  | .hbm, ⟨50, _⟩ => ⟨S800000x1, .i32⟩
  | .hbm, ⟨51, _⟩ => ⟨S100000, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S100000x128, .f32⟩
  | .hbm, ⟨63, _⟩ => ⟨S800000x1, .i32⟩
  | .hbm, ⟨64, _⟩ => ⟨S100000x128, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S800000, .f32⟩
  | .hbm, ⟨82, _⟩ => ⟨S_, .f32⟩
  | .hbm, ⟨83, _⟩ => ⟨S100000, .f32⟩
  | .hbm, ⟨84, _⟩ => ⟨S800000x1, .i32⟩
  | .hbm, ⟨85, _⟩ => ⟨S100000, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .f32⟩
  | .hbm, ⟨95, _⟩ => ⟨S_, .f32⟩
  | .hbm, ⟨96, _⟩ => ⟨S100000x128, .f32⟩
  | .hbm, ⟨97, _⟩ => ⟨S800000x1, .i32⟩
  | .hbm, ⟨98, _⟩ => ⟨S100000x128, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x47, .f32⟩
  | .hbm, ⟨106, _⟩ => ⟨S100000x47, .f32⟩
  | .hbm, ⟨107, _⟩ => ⟨S100000x47, .f32⟩
  | .hbm, ⟨108, _⟩ => ⟨S1x47, .f32⟩
  | .hbm, ⟨109, _⟩ => ⟨S100000x47, .f32⟩
  | .hbm, ⟨110, _⟩ => ⟨S100000x47, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x100 : S_.BroadcastsInDim S100000x100 (![] : Fin 0 → Fin S100000x100.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  scatter_S100000_S800000x1_S800000_n_0_0_1_wf : ScatterDims.WF S100000 S800000x1 S800000 [] [0] [0] 1
  gather_S100000x100_S800000x1_S800000x100_1_0_n_n_0_1_1100_wf : GatherDims.WF S100000x100 S800000x1 S800000x100 [1] [0] [] [0] [] 1 ![1, 100]
  scatter_S100000x100_S800000x1_S800000x100_1_0_0_1_wf : ScatterDims.WF S100000x100 S800000x1 S800000x100 [1] [0] [0] 1
  dot_S100000x100_S100x128_S100000x128_1_0_0_1_n_n_wf : DotDims.WF S100000x100 S100x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x100_S800000x1_S800000x100_1_0_n_n_0_1_1100 : GatherDims S100000x100 S800000x1 S800000x100 where
  offsetDims := [1]
  collapsedSliceDims := [0]
  operandBatchingDims := []
  startIndicesBatchingDims := []
  startIndexMap := [0]
  indexVectorDim := 1
  sliceSizes := ![1, 100]
  wf := gather_S100000x100_S800000x1_S800000x100_1_0_n_n_0_1_1100_wf
def scatter_S100000x100_S800000x1_S800000x100_1_0_0_1 : ScatterDims S100000x100 S800000x1 S800000x100 where
  updateWindowDims := [1]
  insertedWindowDims := [0]
  scatterDimsToOperandDims := [0]
  indexVectorDim := 1
  wf := scatter_S100000x100_S800000x1_S800000x100_1_0_0_1_wf
def dot_S100000x100_S100x128_S100000x128_1_0_0_1_n_n : DotDims S100000x100 S100x128 S100000x128 where
  lhsContracting := [1]
  rhsContracting := [0]
  lhsNonContracting := [0]
  rhsNonContracting := [1]
  lhsBatch := []
  rhsBatch := []
  wf := dot_S100000x100_S100x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.SageLayer.lean ====
/-
  One layer of the network, entry by entry.

  A layer takes the node features `h` (M nodes, K features), the averaged neighbour features `a` of the same size,
  two K×N weight matrices and a bias row of length N, and returns the M×N array whose entry (p, q) is

      (∑ i, h (p, i) · ws (i, q)) + (∑ i, a (p, i) · wn (i, q)) + b q,

  followed, in every layer but the last, by the maximum with zero.  Everything is over the extended reals; the sums
  are finite sums in their additive monoid, so no finiteness of the entries is needed to state or to compare them.
  The zero of the maximum is kept as the zero word's value, the same word on both sides of the comparison.
-/
import Idealize.ShloMosaic.Lib.ValueIdx

noncomputable section

open scoped BigOperators

namespace SageLayer

open Idealize.ShloMosaic Idealize.ShloMosaic.ValueIdx

variable {M K N : Nat}

/-- Entry (p, q) of `h · ws + a · wn + b`. -/
def affineAt (h a : (⟨2, ![M, K]⟩ : Shape).Idx → EReal) (ws wn : (⟨2, ![K, N]⟩ : Shape).Idx → EReal)
    (b : (⟨1, ![N]⟩ : Shape).Idx → EReal) (p : Fin M) (q : Fin N) : EReal :=
  (∑ i : Fin K, h (ix2 p i) * ws (ix2 i q)) + (∑ i : Fin K, a (ix2 p i) * wn (ix2 i q)) + b (ix1 q)

/-- The last layer: `h · ws + a · wn + b` as one array. -/
def affine (h a : (⟨2, ![M, K]⟩ : Shape).Idx → EReal) (ws wn : (⟨2, ![K, N]⟩ : Shape).Idx → EReal)
    (b : (⟨1, ![N]⟩ : Shape).Idx → EReal) : (⟨2, ![M, N]⟩ : Shape).Idx → EReal :=
  fun j => affineAt h a ws wn b (j 0) (j 1)

/-- A hidden layer: the same array cut off below at zero. -/
def hidden (h a : (⟨2, ![M, K]⟩ : Shape).Idx → EReal) (ws wn : (⟨2, ![K, N]⟩ : Shape).Idx → EReal)
    (b : (⟨1, ![N]⟩ : Shape).Idx → EReal) : (⟨2, ![M, N]⟩ : Shape).Idx → EReal :=
  fun j => max (affineAt h a ws wn b (j 0) (j 1)) (Ideal.ofBits .f32 0x00000000#32)

theorem affine_apply (h a : (⟨2, ![M, K]⟩ : Shape).Idx → EReal) (ws wn : (⟨2, ![K, N]⟩ : Shape).Idx → EReal)
    (b : (⟨1, ![N]⟩ : Shape).Idx → EReal) (p : Fin M) (q : Fin N) :
    affine h a ws wn b (ix2 p q) = affineAt h a ws wn b p q := rfl

theorem hidden_apply (h a : (⟨2, ![M, K]⟩ : Shape).Idx → EReal) (ws wn : (⟨2, ![K, N]⟩ : Shape).Idx → EReal)
    (b : (⟨1, ![N]⟩ : Shape).Idx → EReal) (p : Fin M) (q : Fin N) :
    hidden h a ws wn b (ix2 p q) = max (affineAt h a ws wn b p q) (Ideal.ofBits .f32 0x00000000#32) := rfl

end SageLayer

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Body0.lean ====
/-
  The first layer's kernel body at one entry.

  The body multiplies the block of node features by the self weights and the block of averaged neighbour features by
  the neighbour weights (both products into a zero accumulator, the narrowing of the operands being the identity on
  exact values), adds the two products, adds the bias row spread over the block's rows, and cuts off below at zero.
  At entry (p, q) of the block that is the layer's formula on the block's own rows.
-/
import proofs.«145893_j81011673137362_1_alg».proof.Proof.Gen.KernelIdeal.Skeleton
import proofs.«145893_j81011673137362_1_alg».proof.Proof.SageLayer
import proofs.«145893_j81011673137362_1_alg».proof.Proof.LibPlainDot
import Idealize.ShloMosaic.Lib.ValueLayout
import Idealize.ShloMosaic.Lib.Pipeline.Value

noncomputable section

namespace Cert.KernelIdeal.Body0

open Cert.KernelIdeal Cert.KernelIdeal.Gen Idealize.ShloMosaic Idealize.ShloMosaic.ValueIdx

/-- The body's matrix products contract the left operand's columns with the right operand's rows. -/
theorem plain : PlainDot.IsPlain dot_S2000x100_S100x128_S2000x128_1_0_0_1_n_n := ⟨rfl, rfl, rfl, rfl, rfl, rfl⟩

/-- The stored value at entry (p, q): the layer's formula on the loaded blocks, cut off below at zero. -/
theorem pay_apply (x0 x1 : Vec Ideal S2000x100 .f32) (x2 x3 : Vec Ideal S100x128 .f32) (x4 : Vec Ideal S128 .f32)
    (p : Fin 2000) (q : Fin 128) :
    k0_pay1 (F := Ideal) x0 x1 x2 x3 x4 (ix2 p q)
      = max (SageLayer.affineAt x0 x1 x2 x3 x4 p q) (Ideal.ofBits .f32 0x00000000#32) := by
  unfold k0_pay1
  simp only [maximumf_apply, addf_apply, PlainDot.matmul_zero_apply plain, broadcastTo_1b_ab_apply,
    shapeCast_a_1a_apply, shapeCast_self]
  rfl

end Cert.KernelIdeal.Body0

end
-- ==== Proof.Region0.lean ====
/-
  The first layer's output array after its region.

  The region runs the layer's body on 50 blocks of 2000 rows.  Block t of the node features and of the averaged
  neighbour features is rows 2000·t … 2000·t + 1999 of their arrays, the two weight matrices and the bias are read
  whole at every point, and block t of the output is written back to the same rows of the output array.  So what
  point t writes back is block t of ONE array: the layer's formula of the region's entry arrays.  The 50 blocks tile
  the output array, hence the array ends holding that formula everywhere.
-/
import proofs.«145893_j81011673137362_1_alg».proof.Proof.Gen.KernelIdeal.Frame
import proofs.«145893_j81011673137362_1_alg».proof.Proof.Body0
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's five input arrays as it finds them, each at its literal shape. -/
abbrev feat (c : Dev nD) : Vec Ideal S100000x100 .f32 := V c main_arg0
abbrev neigh (c : Dev nD) : Vec Ideal S100000x100 .f32 := V c main_v18
abbrev wself (c : Dev nD) : Vec Ideal S100x128 .f32 := V c main_arg3
abbrev wneigh (c : Dev nD) : Vec Ideal S100x128 .f32 := V c main_arg4
abbrev bias (c : Dev nD) : Vec Ideal S128 .f32 := V c main_arg5

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the grid: the row-blocked windows sit at block row t, column block 0;
    the weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem point_lt (t : Fin cfg0.N) : t.val < 50 := t.isLt

/-- Row p of block t is row 2000·t + p of the array. -/
abbrev row (t : Fin cfg0.N) (p : Fin 2000) : Fin 100000 :=
  ⟨t.val * 2000 + p.val, by have := point_lt t; have := p.isLt; omega⟩

/-- The node features' block at point t, read at (p, k). -/
theorem read_feat (c : Dev nD) (t : Fin cfg0.N) (p : Fin 2000) (k : Fin 100) :
    iblk0 V c 0 t (ix2 p k) = feat V c (ix2 (row t p) k) := by
  show V c main_arg0 (((cfg0.win 0).blk t).view.emb (ix2 p k)) = V c main_arg0 (ix2 (row t p) k)
  obtain ⟨e0, e1, -⟩ := idx_facts t
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 100 + 1 * k.val = k.val; omega

/-- The averaged neighbour features' block at point t, read at (p, k). -/
theorem read_neigh (c : Dev nD) (t : Fin cfg0.N) (p : Fin 2000) (k : Fin 100) :
    iblk0 V c 1 t (ix2 p k) = neigh V c (ix2 (row t p) k) := by
  show V c main_v18 (((cfg0.win 1).blk t).view.emb (ix2 p k)) = V c main_v18 (ix2 (row t p) k)
  obtain ⟨-, -, e0, e1, -⟩ := idx_facts t
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 100 + 1 * k.val = k.val; omega

/-- The self weights are read whole at every point. -/
theorem read_wself (c : Dev nD) (t : Fin cfg0.N) (k : Fin 100) (q : Fin 128) :
    iblk0 V c 2 t (ix2 k q) = wself V c (ix2 k q) := by
  show V c main_arg3 (((cfg0.win 2).blk t).view.emb (ix2 k q)) = V c main_arg3 (ix2 k q)
  obtain ⟨-, -, -, -, e0, e1, -⟩ := idx_facts t
  refine congrArg _ (funext fun a => Fin.ext ?_)
  match a with
  | ⟨0, _⟩ => show win0_2.index t (0 : Fin 2) * 100 + 1 * k.val = k.val; omega
  | ⟨1, _⟩ => show win0_2.index t (1 : Fin 2) * 128 + 1 * q.val = q.val; omega

/-- The neighbour weights are read whole at every point. -/
theorem read_wneigh (c : Dev nD) (t : Fin cfg0.N) (k : Fin 100) (q : Fin 128) :
    iblk0 V c 3 t (ix2 k q) = wneigh V c (ix2 k q) := by
  show V c main_arg4 (((cfg0.win 3).blk t).view.emb (ix2 k q)) = V c main_arg4 (ix2 k q)
  obtain ⟨-, -, -, -, -, -, e0, e1, -⟩ := idx_facts t
  refine congrArg _ (funext fun a => Fin.ext ?_)
  match a with
  | ⟨0, _⟩ => show win0_3.index t (0 : Fin 2) * 100 + 1 * k.val = k.val; omega
  | ⟨1, _⟩ => show win0_3.index t (1 : Fin 2) * 128 + 1 * q.val = q.val; omega

/-- The bias is read whole at every point. -/
theorem read_bias (c : Dev nD) (t : Fin cfg0.N) (q : Fin 128) :
    iblk0 V c 4 t (ix1 q) = bias V c (ix1 q) := by
  show V c main_arg5 (((cfg0.win 4).blk t).view.emb (ix1 q)) = V c main_arg5 (ix1 q)
  obtain ⟨-, -, -, -, -, -, -, -, e0, -⟩ := idx_facts t
  refine congrArg _ (funext fun a => Fin.ext ?_)
  match a with
  | ⟨0, _⟩ => show win0_4.index t (0 : Fin 1) * 128 + 1 * q.val = q.val; omega

/-- WHAT POINT t WRITES BACK is block t of the layer's formula of the region's entry arrays. -/
theorem flushed_eq (c : Dev nD) (t : Fin cfg0.N) :
    (dat0 V c).flushed 5 t = ((cfg0.win 5).blk t).view.read (Elt Ideal)
      (SageLayer.hidden (feat V c) (neigh V c) (wself V c) (wneigh V c) (bias V c)) := by
  show (cfg0.win 5).cut (grid0.coords t) ((dat0 V c).after 5 t) = _
  rw [after0_5]
  unfold out0_5
  rw [View.canon_unit_zero zeros2]
  simp only [View.ld_unit_zero (S := S2000x100) zeros2, View.ld_unit_zero (S := S100x128) zeros2,
    View.ld_unit_zero (S := S128) zeros1]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
    = SageLayer.hidden (feat V c) (neigh V c) (wself V c) (wneigh V c) (bias V c) (((cfg0.win 5).blk t).view.emb (ix2 p q))
  have hemb : ((cfg0.win 5).blk t).view.emb (ix2 p q) = ix2 (row t p) q := by
    obtain ⟨-, -, -, -, -, -, -, -, -, e0, e1⟩ := idx_facts t
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  rw [hemb, SageLayer.hidden_apply]
  refine (Body0.pay_apply (iblk0 V c 0 t) (iblk0 V c 1 t) (iblk0 V c 2 t) (iblk0 V c 3 t) (iblk0 V c 4 t) p q).trans ?_
  unfold SageLayer.affineAt
  simp only [read_feat, read_neigh, read_wself, read_wneigh, read_bias]

/-- An index of the output array is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v19).slice (win0_5.rect t)).set ↔ _
  rw [View.set_slice_whole, Rect.mem_set_unit]
  exact Iff.rfl

/-- The 50 row blocks tile the output array: row r lies in block r / 2000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 2000, by show (i 0).val / 2000 < 50; omega⟩
  have ht : t.val = (i 0).val / 2000 := rfl
  obtain ⟨-, -, -, -, -, -, -, -, -, e0, e1⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE OUTPUT ARRAY after the region: the layer's formula of the region's entry arrays. -/
theorem final (c : Dev nD) :
    (dat0 V c).arrAt 5 cfg0.N = SageLayer.hidden (feat V c) (neigh V c) (wself V c) (wneigh V c) (bias V c) :=
  (dat0 V c).arrAt_eq_of_cover 5 _ (fun t _ => flushed_eq V c t) cover

end Cert.KernelIdeal.Region0

end
-- ==== Proof.Body1.lean ====
/-
  The second layer's kernel body at one entry.

  The body multiplies the block of node features by the self weights and the block of averaged neighbour features by
  the neighbour weights (both products into a zero accumulator, the narrowing of the operands being the identity on
  exact values), adds the two products, adds the bias row spread over the block's rows, and cuts off below at zero.
  At entry (p, q) of the block that is the layer's formula on the block's own rows.
-/
import proofs.«145893_j81011673137362_1_alg».proof.Proof.Gen.KernelIdeal.Skeleton
import proofs.«145893_j81011673137362_1_alg».proof.Proof.SageLayer
import proofs.«145893_j81011673137362_1_alg».proof.Proof.LibPlainDot
import Idealize.ShloMosaic.Lib.ValueLayout
import Idealize.ShloMosaic.Lib.Pipeline.Value

noncomputable section

namespace Cert.KernelIdeal.Body1

open Cert.KernelIdeal Cert.KernelIdeal.Gen Idealize.ShloMosaic Idealize.ShloMosaic.ValueIdx

/-- The body's matrix products contract the left operand's columns with the right operand's rows. -/
theorem plain : PlainDot.IsPlain dot_S2000x128_S128x128_S2000x128_1_0_0_1_n_n := ⟨rfl, rfl, rfl, rfl, rfl, rfl⟩

/-- The stored value at entry (p, q): the layer's formula on the loaded blocks, cut off below at zero. -/
theorem pay_apply (x0 x1 : Vec Ideal S2000x128 .f32) (x2 x3 : Vec Ideal S128x128 .f32) (x4 : Vec Ideal S128 .f32)
    (p : Fin 2000) (q : Fin 128) :
    k1_pay1 (F := Ideal) x0 x1 x2 x3 x4 (ix2 p q)
      = max (SageLayer.affineAt x0 x1 x2 x3 x4 p q) (Ideal.ofBits .f32 0x00000000#32) := by
  unfold k1_pay1
  simp only [maximumf_apply, addf_apply, PlainDot.matmul_zero_apply plain, broadcastTo_1b_ab_apply,
    shapeCast_a_1a_apply, shapeCast_self]
  rfl

end Cert.KernelIdeal.Body1

end
-- ==== Proof.Region1.lean ====
/-
  The second layer's output array after its region.

  The region runs the layer's body on 50 blocks of 2000 rows.  Block t of the node features and of the averaged
  neighbour features is rows 2000·t … 2000·t + 1999 of their arrays, the two weight matrices and the bias are read
  whole at every point, and block t of the output is written back to the same rows of the output array.  So what
  point t writes back is block t of ONE array: the layer's formula of the region's entry arrays.  The 50 blocks tile
  the output array, hence the array ends holding that formula everywhere.
-/
import proofs.«145893_j81011673137362_1_alg».proof.Proof.Gen.KernelIdeal.Frame
import proofs.«145893_j81011673137362_1_alg».proof.Proof.Body1
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's five input arrays as it finds them, each at its literal shape. -/
abbrev feat (c : Dev nD) : Vec Ideal S100000x128 .f32 := V c main_v19
abbrev neigh (c : Dev nD) : Vec Ideal S100000x128 .f32 := V c main_v38
abbrev wself (c : Dev nD) : Vec Ideal S128x128 .f32 := V c main_arg6
abbrev wneigh (c : Dev nD) : Vec Ideal S128x128 .f32 := V c main_arg7
abbrev bias (c : Dev nD) : Vec Ideal S128 .f32 := V c main_arg8

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the grid: the row-blocked windows sit at block row t, column block 0;
    the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem point_lt (t : Fin cfg1.N) : t.val < 50 := t.isLt

/-- Row p of block t is row 2000·t + p of the array. -/
abbrev row (t : Fin cfg1.N) (p : Fin 2000) : Fin 100000 :=
  ⟨t.val * 2000 + p.val, by have := point_lt t; have := p.isLt; omega⟩

/-- The node features' block at point t, read at (p, k). -/
theorem read_feat (c : Dev nD) (t : Fin cfg1.N) (p : Fin 2000) (k : Fin 128) :
    iblk1 V c 0 t (ix2 p k) = feat V c (ix2 (row t p) k) := by
  show V c main_v19 (((cfg1.win 0).blk t).view.emb (ix2 p k)) = V c main_v19 (ix2 (row t p) k)
  obtain ⟨e0, e1, -⟩ := idx_facts t
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

/-- The averaged neighbour features' block at point t, read at (p, k). -/
theorem read_neigh (c : Dev nD) (t : Fin cfg1.N) (p : Fin 2000) (k : Fin 128) :
    iblk1 V c 1 t (ix2 p k) = neigh V c (ix2 (row t p) k) := by
  show V c main_v38 (((cfg1.win 1).blk t).view.emb (ix2 p k)) = V c main_v38 (ix2 (row t p) k)
  obtain ⟨-, -, e0, e1, -⟩ := idx_facts t
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

/-- The self weights are read whole at every point. -/
theorem read_wself (c : Dev nD) (t : Fin cfg1.N) (k : Fin 128) (q : Fin 128) :
    iblk1 V c 2 t (ix2 k q) = wself V c (ix2 k q) := by
  show V c main_arg6 (((cfg1.win 2).blk t).view.emb (ix2 k q)) = V c main_arg6 (ix2 k q)
  obtain ⟨-, -, -, -, e0, e1, -⟩ := idx_facts t
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The neighbour weights are read whole at every point. -/
theorem read_wneigh (c : Dev nD) (t : Fin cfg1.N) (k : Fin 128) (q : Fin 128) :
    iblk1 V c 3 t (ix2 k q) = wneigh V c (ix2 k q) := by
  show V c main_arg7 (((cfg1.win 3).blk t).view.emb (ix2 k q)) = V c main_arg7 (ix2 k q)
  obtain ⟨-, -, -, -, -, -, e0, e1, -⟩ := idx_facts t
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias is read whole at every point. -/
theorem read_bias (c : Dev nD) (t : Fin cfg1.N) (q : Fin 128) :
    iblk1 V c 4 t (ix1 q) = bias V c (ix1 q) := by
  show V c main_arg8 (((cfg1.win 4).blk t).view.emb (ix1 q)) = V c main_arg8 (ix1 q)
  obtain ⟨-, -, -, -, -, -, -, -, e0, -⟩ := idx_facts t
  refine congrArg _ (funext fun a => Fin.ext ?_)
  match a with
  | ⟨0, _⟩ => show win1_4.index t (0 : Fin 1) * 128 + 1 * q.val = q.val; omega

/-- WHAT POINT t WRITES BACK is block t of the layer's formula of the region's entry arrays. -/
theorem flushed_eq (c : Dev nD) (t : Fin cfg1.N) :
    (dat1 V c).flushed 5 t = ((cfg1.win 5).blk t).view.read (Elt Ideal)
      (SageLayer.hidden (feat V c) (neigh V c) (wself V c) (wneigh V c) (bias V c)) := by
  show (cfg1.win 5).cut (grid1.coords t) ((dat1 V c).after 5 t) = _
  rw [after1_5]
  unfold out1_5
  rw [View.canon_unit_zero zeros2]
  simp only [View.ld_unit_zero (S := S2000x128) zeros2, View.ld_unit_zero (S := S128x128) zeros2,
    View.ld_unit_zero (S := S128) zeros1]
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = SageLayer.hidden (feat V c) (neigh V c) (wself V c) (wneigh V c) (bias V c) (((cfg1.win 5).blk t).view.emb (ix2 p q))
  have hemb : ((cfg1.win 5).blk t).view.emb (ix2 p q) = ix2 (row t p) q := by
    obtain ⟨-, -, -, -, -, -, -, -, -, e0, e1⟩ := idx_facts t
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  rw [hemb, SageLayer.hidden_apply]
  refine (Body1.pay_apply (iblk1 V c 0 t) (iblk1 V c 1 t) (iblk1 V c 2 t) (iblk1 V c 3 t) (iblk1 V c 4 t) p q).trans ?_
  unfold SageLayer.affineAt
  simp only [read_feat, read_neigh, read_wself, read_wneigh, read_bias]

/-- An index of the output array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v39).slice (win1_5.rect t)).set ↔ _
  rw [View.set_slice_whole, Rect.mem_set_unit]
  exact Iff.rfl

/-- The 50 row blocks tile the output array: row r lies in block r / 2000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 2000, by show (i 0).val / 2000 < 50; omega⟩
  have ht : t.val = (i 0).val / 2000 := rfl
  obtain ⟨-, -, -, -, -, -, -, -, -, e0, e1⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE OUTPUT ARRAY after the region: the layer's formula of the region's entry arrays. -/
theorem final (c : Dev nD) :
    (dat1 V c).arrAt 5 cfg1.N = SageLayer.hidden (feat V c) (neigh V c) (wself V c) (wneigh V c) (bias V c) :=
  (dat1 V c).arrAt_eq_of_cover 5 _ (fun t _ => flushed_eq V c t) cover

end Cert.KernelIdeal.Region1

end
-- ==== Proof.Body2.lean ====
/-
  The last layer's kernel body at one entry.

  The body multiplies the block of node features by the self weights and the block of averaged neighbour features by
  the neighbour weights (both products into a zero accumulator, the narrowing of the operands being the identity on
  exact values), adds the two products and adds the bias row spread over the block's rows.  There is no cut-off in
  the last layer.  At entry (p, q) of the block that is the layer's formula on the block's own rows.
-/
import proofs.«145893_j81011673137362_1_alg».proof.Proof.Gen.KernelIdeal.Skeleton
import proofs.«145893_j81011673137362_1_alg».proof.Proof.SageLayer
import proofs.«145893_j81011673137362_1_alg».proof.Proof.LibPlainDot
import Idealize.ShloMosaic.Lib.ValueLayout
import Idealize.ShloMosaic.Lib.Pipeline.Value

noncomputable section

namespace Cert.KernelIdeal.Body2

open Cert.KernelIdeal Cert.KernelIdeal.Gen Idealize.ShloMosaic Idealize.ShloMosaic.ValueIdx

/-- The body's matrix products contract the left operand's columns with the right operand's rows. -/
theorem plain : PlainDot.IsPlain dot_S2000x128_S128x47_S2000x47_1_0_0_1_n_n := ⟨rfl, rfl, rfl, rfl, rfl, rfl⟩

/-- The stored value at entry (p, q): the layer's formula on the loaded blocks. -/
theorem pay_apply (x0 x1 : Vec Ideal S2000x128 .f32) (x2 x3 : Vec Ideal S128x47 .f32) (x4 : Vec Ideal S47 .f32)
    (p : Fin 2000) (q : Fin 47) :
    k2_pay1 (F := Ideal) x0 x1 x2 x3 x4 (ix2 p q) = SageLayer.affineAt x0 x1 x2 x3 x4 p q := by
  unfold k2_pay1
  simp only [addf_apply, PlainDot.matmul_zero_apply plain, broadcastTo_1b_ab_apply, shapeCast_a_1a_apply,
    shapeCast_self]
  rfl

end Cert.KernelIdeal.Body2

end
-- ==== Proof.Region2.lean ====
/-
  The last layer's output array after its region.

  The region runs the layer's body on 50 blocks of 2000 rows.  Block t of the node features and of the averaged
  neighbour features is rows 2000·t … 2000·t + 1999 of their arrays, the two weight matrices and the bias are read
  whole at every point, and block t of the output is written back to the same rows of the output array.  So what
  point t writes back is block t of ONE array: the layer's formula of the region's entry arrays.  The 50 blocks tile
  the output array, hence the array ends holding that formula everywhere.
-/
import proofs.«145893_j81011673137362_1_alg».proof.Proof.Gen.KernelIdeal.Frame
import proofs.«145893_j81011673137362_1_alg».proof.Proof.Body2
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's five input arrays as it finds them, each at its literal shape. -/
abbrev feat (c : Dev nD) : Vec Ideal S100000x128 .f32 := V c main_v39
abbrev neigh (c : Dev nD) : Vec Ideal S100000x128 .f32 := V c main_v58
abbrev wself (c : Dev nD) : Vec Ideal S128x47 .f32 := V c main_arg9
abbrev wneigh (c : Dev nD) : Vec Ideal S128x47 .f32 := V c main_arg10
abbrev bias (c : Dev nD) : Vec Ideal S47 .f32 := V c main_arg11

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the grid: the row-blocked windows sit at block row t, column block 0;
    the weights and the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

theorem point_lt (t : Fin cfg2.N) : t.val < 50 := t.isLt

/-- Row p of block t is row 2000·t + p of the array. -/
abbrev row (t : Fin cfg2.N) (p : Fin 2000) : Fin 100000 :=
  ⟨t.val * 2000 + p.val, by have := point_lt t; have := p.isLt; omega⟩

/-- The node features' block at point t, read at (p, k). -/
theorem read_feat (c : Dev nD) (t : Fin cfg2.N) (p : Fin 2000) (k : Fin 128) :
    iblk2 V c 0 t (ix2 p k) = feat V c (ix2 (row t p) k) := by
  show V c main_v39 (((cfg2.win 0).blk t).view.emb (ix2 p k)) = V c main_v39 (ix2 (row t p) k)
  obtain ⟨e0, e1, -⟩ := idx_facts t
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

/-- The averaged neighbour features' block at point t, read at (p, k). -/
theorem read_neigh (c : Dev nD) (t : Fin cfg2.N) (p : Fin 2000) (k : Fin 128) :
    iblk2 V c 1 t (ix2 p k) = neigh V c (ix2 (row t p) k) := by
  show V c main_v58 (((cfg2.win 1).blk t).view.emb (ix2 p k)) = V c main_v58 (ix2 (row t p) k)
  obtain ⟨-, -, e0, e1, -⟩ := idx_facts t
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * k.val = k.val; omega

/-- The self weights are read whole at every point. -/
theorem read_wself (c : Dev nD) (t : Fin cfg2.N) (k : Fin 128) (q : Fin 47) :
    iblk2 V c 2 t (ix2 k q) = wself V c (ix2 k q) := by
  show V c main_arg9 (((cfg2.win 2).blk t).view.emb (ix2 k q)) = V c main_arg9 (ix2 k q)
  obtain ⟨-, -, -, -, e0, e1, -⟩ := idx_facts t
  refine congrArg _ (funext fun a => Fin.ext ?_)
  match a with
  | ⟨0, _⟩ => show win2_2.index t (0 : Fin 2) * 128 + 1 * k.val = k.val; omega
  | ⟨1, _⟩ => show win2_2.index t (1 : Fin 2) * 47 + 1 * q.val = q.val; omega

/-- The neighbour weights are read whole at every point. -/
theorem read_wneigh (c : Dev nD) (t : Fin cfg2.N) (k : Fin 128) (q : Fin 47) :
    iblk2 V c 3 t (ix2 k q) = wneigh V c (ix2 k q) := by
  show V c main_arg10 (((cfg2.win 3).blk t).view.emb (ix2 k q)) = V c main_arg10 (ix2 k q)
  obtain ⟨-, -, -, -, -, -, e0, e1, -⟩ := idx_facts t
  refine congrArg _ (funext fun a => Fin.ext ?_)
  match a with
  | ⟨0, _⟩ => show win2_3.index t (0 : Fin 2) * 128 + 1 * k.val = k.val; omega
  | ⟨1, _⟩ => show win2_3.index t (1 : Fin 2) * 47 + 1 * q.val = q.val; omega

/-- The bias is read whole at every point. -/
theorem read_bias (c : Dev nD) (t : Fin cfg2.N) (q : Fin 47) :
    iblk2 V c 4 t (ix1 q) = bias V c (ix1 q) := by
  show V c main_arg11 (((cfg2.win 4).blk t).view.emb (ix1 q)) = V c main_arg11 (ix1 q)
  obtain ⟨-, -, -, -, -, -, -, -, e0, -⟩ := idx_facts t
  refine congrArg _ (funext fun a => Fin.ext ?_)
  match a with
  | ⟨0, _⟩ => show win2_4.index t (0 : Fin 1) * 47 + 1 * q.val = q.val; omega

/-- WHAT POINT t WRITES BACK is block t of the layer's formula of the region's entry arrays. -/
theorem flushed_eq (c : Dev nD) (t : Fin cfg2.N) :
    (dat2 V c).flushed 5 t = ((cfg2.win 5).blk t).view.read (Elt Ideal)
      (SageLayer.affine (feat V c) (neigh V c) (wself V c) (wneigh V c) (bias V c)) := by
  show (cfg2.win 5).cut (grid2.coords t) ((dat2 V c).after 5 t) = _
  rw [after2_5]
  unfold out2_5
  rw [View.canon_unit_zero zeros2]
  simp only [View.ld_unit_zero (S := S2000x128) zeros2, View.ld_unit_zero (S := S128x47) zeros2,
    View.ld_unit_zero (S := S47) zeros1]
  funext j
  obtain ⟨p, q, rfl⟩ : ∃ (p : Fin 2000) (q : Fin 47), j = ix2 p q := ⟨j 0, j 1, eq_ix2 j⟩
  show k2_pay1 (iblk2 V c 0 t) (iblk2 V c 1 t) (iblk2 V c 2 t) (iblk2 V c 3 t) (iblk2 V c 4 t) (ix2 p q)
    = SageLayer.affine (feat V c) (neigh V c) (wself V c) (wneigh V c) (bias V c) (((cfg2.win 5).blk t).view.emb (ix2 p q))
  have hemb : ((cfg2.win 5).blk t).view.emb (ix2 p q) = ix2 (row t p) q := by
    obtain ⟨-, -, -, -, -, -, -, -, -, e0, e1⟩ := idx_facts t
    funext a; apply Fin.ext
    match a with
    | ⟨0, _⟩ => show win2_5.index t (0 : Fin 2) * 2000 + 1 * p.val = t.val * 2000 + p.val; omega
    | ⟨1, _⟩ => show win2_5.index t (1 : Fin 2) * 47 + 1 * q.val = q.val; omega
  rw [hemb, SageLayer.affine_apply]
  refine (Body2.pay_apply (iblk2 V c 0 t) (iblk2 V c 1 t) (iblk2 V c 2 t) (iblk2 V c 3 t) (iblk2 V c 4 t) p q).trans ?_
  unfold SageLayer.affineAt
  simp only [read_feat, read_neigh, read_wself, read_wneigh, read_bias]

/-- An index of the output array is in point t's block iff each coordinate is in the block's range on its axis. -/
theorem mem_blk (t : Fin cfg2.N) (i : S100000x47.Idx) :
    i ∈ ((cfg2.win 5).blk t).view.set ↔ ∀ a : Fin 2, win2_5.index t a * S2000x47.size a ≤ (i a).val ∧ (i a).val < win2_5.index t a * S2000x47.size a + S2000x47.size a := by
  show i ∈ ((View.whole main_v59).slice (win2_5.rect t)).set ↔ _
  rw [View.set_slice_whole, Rect.mem_set_unit]
  exact Iff.rfl

/-- The 50 row blocks tile the output array: row r lies in block r / 2000. -/
theorem cover (i : S100000x47.Idx) :
    ∃ t : Fin cfg2.N, (cfg2.win 5).flush t = true ∧ i ∈ ((cfg2.win 5).blk t).view.set := by
  have hi0 : (i 0).val < 100000 := (i 0).isLt
  have hi1 : (i 1).val < 47 := (i 1).isLt
  let t : Fin cfg2.N := ⟨(i 0).val / 2000, by show (i 0).val / 2000 < 50; omega⟩
  have ht : t.val = (i 0).val / 2000 := rfl
  obtain ⟨-, -, -, -, -, -, -, -, -, e0, e1⟩ := idx_facts t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 47 ≤ (i 1).val ∧ (i 1).val < win2_5.index t (1 : Fin 2) * 47 + 47; omega

/-- THE OUTPUT ARRAY after the region: the layer's formula of the region's entry arrays. -/
theorem final (c : Dev nD) :
    (dat2 V c).arrAt 5 cfg2.N = SageLayer.affine (feat V c) (neigh V c) (wself V c) (wneigh V c) (bias V c) :=
  (dat2 V c).arrAt_eq_of_cover 5 _ (fun t _ => flushed_eq V c t) cover

end Cert.KernelIdeal.Region2

end
-- ==== Proof.KernelNet.lean ====
/-
  The kernel program's result array as three layers of the arguments.

  @main alternates host stretches and regions.  Each host stretch computes, from the current node features h and
  the two index arrays, the averaged neighbour features: the rows of h gathered at the source indices (a negative
  index counted from the end), added up by destination index, and divided row by row by the number of edges that
  arrive there, at least one.  Each region then writes the layer's formula of h, that average, its two weight
  matrices and its bias.  No stretch and no region writes an argument array or an earlier region's output, so every
  buffer a later step reads still holds what was last put there, and the result array is the third layer of the
  second of the first of the node features.
-/
import proofs.«145893_j81011673137362_1_alg».proof.Proof.Region0
import proofs.«145893_j81011673137362_1_alg».proof.Proof.Region1
import proofs.«145893_j81011673137362_1_alg».proof.Proof.Region2
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem

/-- The averaged neighbour features of 100-wide node features, as the first host stretch computes them. -/
def mean100 (h : FVec Ideal S100000x100 .f32) (src dst : IVec S800000 32) : FVec Ideal S100000x100 .f32 :=
  Host.divf (Host.scatterAdd scatter_S100000x100_S800000x1_S800000x100_1_0_0_1 (broadcastInDim S100000x100 ![] bcast_S_S100000x100 (constant S_ .f32 0x00000000#32)) (broadcastInDim S800000x1 ![0] bcast_S800000_S800000x1_0 dst) (Host.gather gather_S100000x100_S800000x1_S800000x100_1_0_n_n_0_1_1100 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 100000#32))) src)))) (broadcastInDim S100000x100 ![0, 1] bcast_S100000x1_S100000x100_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 dst) (broadcastInDim S800000 ![] bcast_S_S800000 (constant S_ .f32 0x3F800000#32))) (broadcastInDim S100000 ![] bcast_S_S100000 (constant S_ .f32 0x3F800000#32)))))

/-- The averaged neighbour features of 128-wide node features, as the second and third host stretches compute them. -/
def mean128 (h : FVec Ideal S100000x128 .f32) (src dst : IVec S800000 32) : FVec Ideal S100000x128 .f32 :=
  Host.divf (Host.scatterAdd scatter_S100000x128_S800000x1_S800000x128_1_0_0_1 (broadcastInDim S100000x128 ![] bcast_S_S100000x128 (constant S_ .f32 0x00000000#32)) (broadcastInDim S800000x1 ![0] bcast_S800000_S800000x1_0 dst) (Host.gather gather_S100000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 100000#32))) src)))) (broadcastInDim S100000x128 ![0, 1] bcast_S100000x1_S100000x128_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 dst) (broadcastInDim S800000 ![] bcast_S_S800000 (constant S_ .f32 0x3F800000#32))) (broadcastInDim S100000 ![] bcast_S_S100000 (constant S_ .f32 0x3F800000#32)))))

/-- A layer's formula respects equality of its five arrays. -/
theorem hidden_congr {M K N : Nat} {h h' a a' : (⟨2, ![M, K]⟩ : Shape).Idx → EReal} {ws ws' wn wn' : (⟨2, ![K, N]⟩ : Shape).Idx → EReal}
    {b b' : (⟨1, ![N]⟩ : Shape).Idx → EReal} (e1 : h = h') (e2 : a = a') (e3 : ws = ws') (e4 : wn = wn') (e5 : b = b') :
    SageLayer.hidden h a ws wn b = SageLayer.hidden h' a' ws' wn' b' := by rw [e1, e2, e3, e4, e5]
theorem affine_congr {M K N : Nat} {h h' a a' : (⟨2, ![M, K]⟩ : Shape).Idx → EReal} {ws ws' wn wn' : (⟨2, ![K, N]⟩ : Shape).Idx → EReal}
    {b b' : (⟨1, ![N]⟩ : Shape).Idx → EReal} (e1 : h = h') (e2 : a = a') (e3 : ws = ws') (e4 : wn = wn') (e5 : b = b') :
    SageLayer.affine h a ws wn b = SageLayer.affine h' a' ws' wn' b' := by rw [e1, e2, e3, e4, e5]
theorem mean128_congr {h h' : FVec Ideal S100000x128 .f32} {s s' d d' : IVec S800000 32} (e1 : h = h') (e2 : s = s') (e3 : d = d') :
    mean128 h s d = mean128 h' s' d' := by rw [e1, e2, e3]

variable (m : (ℓ : Loc nD τ sig) → Buf (Elt Ideal) ℓ) (ρ : Dev nD → PrngReg)

/-- A buffer that none of a stretch's operations writes keeps its contents over the stretch. -/
local macro "kept_over " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The first stretch and the first region -/

theorem in1_arg0 (c : Dev nD) : W1 m ρ c (Proc.devRef .tc main_arg0) = m ((c : Thread nD τ).loc main_arg0) := by
  show W1 m ρ c (Proc.devRef .tc main_arg0) = W0 m ρ c (Proc.devRef .tc main_arg0); kept_over hostOps0
theorem in1_arg1 (c : Dev nD) : W1 m ρ c (Proc.devRef .tc main_arg1) = m ((c : Thread nD τ).loc main_arg1) := by
  show W1 m ρ c (Proc.devRef .tc main_arg1) = W0 m ρ c (Proc.devRef .tc main_arg1); kept_over hostOps0
theorem in1_arg2 (c : Dev nD) : W1 m ρ c (Proc.devRef .tc main_arg2) = m ((c : Thread nD τ).loc main_arg2) := by
  show W1 m ρ c (Proc.devRef .tc main_arg2) = W0 m ρ c (Proc.devRef .tc main_arg2); kept_over hostOps0
theorem in1_arg3 (c : Dev nD) : W1 m ρ c (Proc.devRef .tc main_arg3) = m ((c : Thread nD τ).loc main_arg3) := by
  show W1 m ρ c (Proc.devRef .tc main_arg3) = W0 m ρ c (Proc.devRef .tc main_arg3); kept_over hostOps0
theorem in1_arg4 (c : Dev nD) : W1 m ρ c (Proc.devRef .tc main_arg4) = m ((c : Thread nD τ).loc main_arg4) := by
  show W1 m ρ c (Proc.devRef .tc main_arg4) = W0 m ρ c (Proc.devRef .tc main_arg4); kept_over hostOps0
theorem in1_arg5 (c : Dev nD) : W1 m ρ c (Proc.devRef .tc main_arg5) = m ((c : Thread nD τ).loc main_arg5) := by
  show W1 m ρ c (Proc.devRef .tc main_arg5) = W0 m ρ c (Proc.devRef .tc main_arg5); kept_over hostOps0
theorem in1_arg6 (c : Dev nD) : W1 m ρ c (Proc.devRef .tc main_arg6) = m ((c : Thread nD τ).loc main_arg6) := by
  show W1 m ρ c (Proc.devRef .tc main_arg6) = W0 m ρ c (Proc.devRef .tc main_arg6); kept_over hostOps0
theorem in1_arg7 (c : Dev nD) : W1 m ρ c (Proc.devRef .tc main_arg7) = m ((c : Thread nD τ).loc main_arg7) := by
  show W1 m ρ c (Proc.devRef .tc main_arg7) = W0 m ρ c (Proc.devRef .tc main_arg7); kept_over hostOps0
theorem in1_arg8 (c : Dev nD) : W1 m ρ c (Proc.devRef .tc main_arg8) = m ((c : Thread nD τ).loc main_arg8) := by
  show W1 m ρ c (Proc.devRef .tc main_arg8) = W0 m ρ c (Proc.devRef .tc main_arg8); kept_over hostOps0
theorem in1_arg9 (c : Dev nD) : W1 m ρ c (Proc.devRef .tc main_arg9) = m ((c : Thread nD τ).loc main_arg9) := by
  show W1 m ρ c (Proc.devRef .tc main_arg9) = W0 m ρ c (Proc.devRef .tc main_arg9); kept_over hostOps0
theorem in1_arg10 (c : Dev nD) : W1 m ρ c (Proc.devRef .tc main_arg10) = m ((c : Thread nD τ).loc main_arg10) := by
  show W1 m ρ c (Proc.devRef .tc main_arg10) = W0 m ρ c (Proc.devRef .tc main_arg10); kept_over hostOps0
theorem in1_arg11 (c : Dev nD) : W1 m ρ c (Proc.devRef .tc main_arg11) = m ((c : Thread nD τ).loc main_arg11) := by
  show W1 m ρ c (Proc.devRef .tc main_arg11) = W0 m ρ c (Proc.devRef .tc main_arg11); kept_over hostOps0

set_option maxHeartbeats 8000000 in
/-- The first stretch leaves the averaged neighbour features of the node features in its last buffer. -/
theorem in1_mean (c : Dev nD) : W1 m ρ c (Proc.devRef .tc main_v18)
    = mean100 (m ((c : Thread nD τ).loc main_arg0)) (m ((c : Thread nD τ).loc main_arg1)) (m ((c : Thread nD τ).loc main_arg2)) := by
  show StableHlo.after hostOps0 (W0 m ρ c) (Proc.devRef .tc main_v18) = _
  dsimp only [hostOps0]
  after_results_simp <;> rfl

/-- The first layer of the arguments. -/
def layer1 (c : Dev nD) : FVec Ideal S100000x128 .f32 :=
  SageLayer.hidden (m ((c : Thread nD τ).loc main_arg0))
    (mean100 (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5))

/-- The first region leaves the first layer in its output array. -/
theorem out2 (c : Dev nD) : W2 m ρ c (Proc.devRef .tc main_v19) = layer1 m c :=
  (W2_arr m ρ c 5).trans ((Region0.final (V1 m ρ) c).trans
    (hidden_congr (in1_arg0 m ρ c) (in1_mean m ρ c) (in1_arg3 m ρ c) (in1_arg4 m ρ c) (in1_arg5 m ρ c)))

theorem in2_arg1 (c : Dev nD) : W2 m ρ c (Proc.devRef .tc main_arg1) = m ((c : Thread nD τ).loc main_arg1) :=
  (W2_of_ne m ρ c main_arg1 (by decide)).trans (in1_arg1 m ρ c)
theorem in2_arg2 (c : Dev nD) : W2 m ρ c (Proc.devRef .tc main_arg2) = m ((c : Thread nD τ).loc main_arg2) :=
  (W2_of_ne m ρ c main_arg2 (by decide)).trans (in1_arg2 m ρ c)
theorem in2_arg6 (c : Dev nD) : W2 m ρ c (Proc.devRef .tc main_arg6) = m ((c : Thread nD τ).loc main_arg6) :=
  (W2_of_ne m ρ c main_arg6 (by decide)).trans (in1_arg6 m ρ c)
theorem in2_arg7 (c : Dev nD) : W2 m ρ c (Proc.devRef .tc main_arg7) = m ((c : Thread nD τ).loc main_arg7) :=
  (W2_of_ne m ρ c main_arg7 (by decide)).trans (in1_arg7 m ρ c)
theorem in2_arg8 (c : Dev nD) : W2 m ρ c (Proc.devRef .tc main_arg8) = m ((c : Thread nD τ).loc main_arg8) :=
  (W2_of_ne m ρ c main_arg8 (by decide)).trans (in1_arg8 m ρ c)
theorem in2_arg9 (c : Dev nD) : W2 m ρ c (Proc.devRef .tc main_arg9) = m ((c : Thread nD τ).loc main_arg9) :=
  (W2_of_ne m ρ c main_arg9 (by decide)).trans (in1_arg9 m ρ c)
theorem in2_arg10 (c : Dev nD) : W2 m ρ c (Proc.devRef .tc main_arg10) = m ((c : Thread nD τ).loc main_arg10) :=
  (W2_of_ne m ρ c main_arg10 (by decide)).trans (in1_arg10 m ρ c)
theorem in2_arg11 (c : Dev nD) : W2 m ρ c (Proc.devRef .tc main_arg11) = m ((c : Thread nD τ).loc main_arg11) :=
  (W2_of_ne m ρ c main_arg11 (by decide)).trans (in1_arg11 m ρ c)

/-! ## The second stretch and the second region -/

theorem in3_feat (c : Dev nD) : W3 m ρ c (Proc.devRef .tc main_v19) = layer1 m c :=
  (show W3 m ρ c (Proc.devRef .tc main_v19) = W2 m ρ c (Proc.devRef .tc main_v19) by kept_over hostOps1).trans (out2 m ρ c)
theorem in3_arg1 (c : Dev nD) : W3 m ρ c (Proc.devRef .tc main_arg1) = m ((c : Thread nD τ).loc main_arg1) :=
  (show W3 m ρ c (Proc.devRef .tc main_arg1) = W2 m ρ c (Proc.devRef .tc main_arg1) by kept_over hostOps1).trans (in2_arg1 m ρ c)
theorem in3_arg2 (c : Dev nD) : W3 m ρ c (Proc.devRef .tc main_arg2) = m ((c : Thread nD τ).loc main_arg2) :=
  (show W3 m ρ c (Proc.devRef .tc main_arg2) = W2 m ρ c (Proc.devRef .tc main_arg2) by kept_over hostOps1).trans (in2_arg2 m ρ c)
theorem in3_arg6 (c : Dev nD) : W3 m ρ c (Proc.devRef .tc main_arg6) = m ((c : Thread nD τ).loc main_arg6) :=
  (show W3 m ρ c (Proc.devRef .tc main_arg6) = W2 m ρ c (Proc.devRef .tc main_arg6) by kept_over hostOps1).trans (in2_arg6 m ρ c)
theorem in3_arg7 (c : Dev nD) : W3 m ρ c (Proc.devRef .tc main_arg7) = m ((c : Thread nD τ).loc main_arg7) :=
  (show W3 m ρ c (Proc.devRef .tc main_arg7) = W2 m ρ c (Proc.devRef .tc main_arg7) by kept_over hostOps1).trans (in2_arg7 m ρ c)
theorem in3_arg8 (c : Dev nD) : W3 m ρ c (Proc.devRef .tc main_arg8) = m ((c : Thread nD τ).loc main_arg8) :=
  (show W3 m ρ c (Proc.devRef .tc main_arg8) = W2 m ρ c (Proc.devRef .tc main_arg8) by kept_over hostOps1).trans (in2_arg8 m ρ c)
theorem in3_arg9 (c : Dev nD) : W3 m ρ c (Proc.devRef .tc main_arg9) = m ((c : Thread nD τ).loc main_arg9) :=
  (show W3 m ρ c (Proc.devRef .tc main_arg9) = W2 m ρ c (Proc.devRef .tc main_arg9) by kept_over hostOps1).trans (in2_arg9 m ρ c)
theorem in3_arg10 (c : Dev nD) : W3 m ρ c (Proc.devRef .tc main_arg10) = m ((c : Thread nD τ).loc main_arg10) :=
  (show W3 m ρ c (Proc.devRef .tc main_arg10) = W2 m ρ c (Proc.devRef .tc main_arg10) by kept_over hostOps1).trans (in2_arg10 m ρ c)
theorem in3_arg11 (c : Dev nD) : W3 m ρ c (Proc.devRef .tc main_arg11) = m ((c : Thread nD τ).loc main_arg11) :=
  (show W3 m ρ c (Proc.devRef .tc main_arg11) = W2 m ρ c (Proc.devRef .tc main_arg11) by kept_over hostOps1).trans (in2_arg11 m ρ c)

set_option maxHeartbeats 8000000 in
/-- The second stretch leaves the averaged neighbour features of the first layer in its last buffer. -/
theorem in3_mean (c : Dev nD) : W3 m ρ c (Proc.devRef .tc main_v38)
    = mean128 (layer1 m c) (m ((c : Thread nD τ).loc main_arg1)) (m ((c : Thread nD τ).loc main_arg2)) := by
  have e : W3 m ρ c (Proc.devRef .tc main_v38)
      = mean128 (W2 m ρ c (Proc.devRef .tc main_v19)) (W2 m ρ c (Proc.devRef .tc main_arg1)) (W2 m ρ c (Proc.devRef .tc main_arg2)) := by
    show StableHlo.after hostOps1 (W2 m ρ c) (Proc.devRef .tc main_v38) = _
    dsimp only [hostOps1]
    after_results_simp <;> rfl
  exact e.trans (mean128_congr (out2 m ρ c) (in2_arg1 m ρ c) (in2_arg2 m ρ c))

/-- The second layer of the arguments. -/
def layer2 (c : Dev nD) : FVec Ideal S100000x128 .f32 :=
  SageLayer.hidden (layer1 m c)
    (mean128 (layer1 m c) (m ((c : Thread nD τ).loc main_arg1)) (m ((c : Thread nD τ).loc main_arg2)))
    (m ((c : Thread nD τ).loc main_arg6)) (m ((c : Thread nD τ).loc main_arg7)) (m ((c : Thread nD τ).loc main_arg8))

/-- The second region leaves the second layer in its output array. -/
theorem out4 (c : Dev nD) : W4 m ρ c (Proc.devRef .tc main_v39) = layer2 m c :=
  (W4_arr m ρ c 5).trans ((Region1.final (V3 m ρ) c).trans
    (hidden_congr (in3_feat m ρ c) (in3_mean m ρ c) (in3_arg6 m ρ c) (in3_arg7 m ρ c) (in3_arg8 m ρ c)))

theorem in4_arg1 (c : Dev nD) : W4 m ρ c (Proc.devRef .tc main_arg1) = m ((c : Thread nD τ).loc main_arg1) :=
  (W4_of_ne m ρ c main_arg1 (by decide)).trans (in3_arg1 m ρ c)
theorem in4_arg2 (c : Dev nD) : W4 m ρ c (Proc.devRef .tc main_arg2) = m ((c : Thread nD τ).loc main_arg2) :=
  (W4_of_ne m ρ c main_arg2 (by decide)).trans (in3_arg2 m ρ c)
theorem in4_arg9 (c : Dev nD) : W4 m ρ c (Proc.devRef .tc main_arg9) = m ((c : Thread nD τ).loc main_arg9) :=
  (W4_of_ne m ρ c main_arg9 (by decide)).trans (in3_arg9 m ρ c)
theorem in4_arg10 (c : Dev nD) : W4 m ρ c (Proc.devRef .tc main_arg10) = m ((c : Thread nD τ).loc main_arg10) :=
  (W4_of_ne m ρ c main_arg10 (by decide)).trans (in3_arg10 m ρ c)
theorem in4_arg11 (c : Dev nD) : W4 m ρ c (Proc.devRef .tc main_arg11) = m ((c : Thread nD τ).loc main_arg11) :=
  (W4_of_ne m ρ c main_arg11 (by decide)).trans (in3_arg11 m ρ c)

/-! ## The third stretch and the third region -/

theorem in5_feat (c : Dev nD) : W5 m ρ c (Proc.devRef .tc main_v39) = layer2 m c :=
  (show W5 m ρ c (Proc.devRef .tc main_v39) = W4 m ρ c (Proc.devRef .tc main_v39) by kept_over hostOps2).trans (out4 m ρ c)
theorem in5_arg9 (c : Dev nD) : W5 m ρ c (Proc.devRef .tc main_arg9) = m ((c : Thread nD τ).loc main_arg9) :=
  (show W5 m ρ c (Proc.devRef .tc main_arg9) = W4 m ρ c (Proc.devRef .tc main_arg9) by kept_over hostOps2).trans (in4_arg9 m ρ c)
theorem in5_arg10 (c : Dev nD) : W5 m ρ c (Proc.devRef .tc main_arg10) = m ((c : Thread nD τ).loc main_arg10) :=
  (show W5 m ρ c (Proc.devRef .tc main_arg10) = W4 m ρ c (Proc.devRef .tc main_arg10) by kept_over hostOps2).trans (in4_arg10 m ρ c)
theorem in5_arg11 (c : Dev nD) : W5 m ρ c (Proc.devRef .tc main_arg11) = m ((c : Thread nD τ).loc main_arg11) :=
  (show W5 m ρ c (Proc.devRef .tc main_arg11) = W4 m ρ c (Proc.devRef .tc main_arg11) by kept_over hostOps2).trans (in4_arg11 m ρ c)

set_option maxHeartbeats 8000000 in
/-- The third stretch leaves the averaged neighbour features of the second layer in its last buffer. -/
theorem in5_mean (c : Dev nD) : W5 m ρ c (Proc.devRef .tc main_v58)
    = mean128 (layer2 m c) (m ((c : Thread nD τ).loc main_arg1)) (m ((c : Thread nD τ).loc main_arg2)) := by
  have e : W5 m ρ c (Proc.devRef .tc main_v58)
      = mean128 (W4 m ρ c (Proc.devRef .tc main_v39)) (W4 m ρ c (Proc.devRef .tc main_arg1)) (W4 m ρ c (Proc.devRef .tc main_arg2)) := by
    show StableHlo.after hostOps2 (W4 m ρ c) (Proc.devRef .tc main_v58) = _
    dsimp only [hostOps2]
    after_results_simp <;> rfl
  exact e.trans (mean128_congr (out4 m ρ c) (in4_arg1 m ρ c) (in4_arg2 m ρ c))

/-- The network's output: the last layer of the second layer. -/
def output (c : Dev nD) : FVec Ideal S100000x47 .f32 :=
  SageLayer.affine (layer2 m c)
    (mean128 (layer2 m c) (m ((c : Thread nD τ).loc main_arg1)) (m ((c : Thread nD τ).loc main_arg2)))
    (m ((c : Thread nD τ).loc main_arg9)) (m ((c : Thread nD τ).loc main_arg10)) (m ((c : Thread nD τ).loc main_arg11))

/-- THE RESULT ARRAY at the last boundary: the network's output of the arguments. -/
theorem result (c : Dev nD) : W6 m ρ c (Proc.devRef .tc main_v59) = output m c :=
  (W6_arr m ρ c 5).trans ((Region2.final (V5 m ρ) c).trans
    (affine_congr (in5_feat m ρ c) (in5_mean m ρ c) (in5_arg9 m ρ c) (in5_arg10 m ρ c) (in5_arg11 m ρ c)))

end Cert.KernelIdeal.Net

end
-- ==== Proof.RefNet.lean ====
/-
  The reference program's result array as three layers of the arguments.

  The reference computes each layer with two matrix products of the whole arrays, an addition of the two, the bias
  row spread over all rows and, but for the last layer, a maximum with zero.  Read at an entry (p, q) each product
  is the sum over the contracted index of the products of entries, the spread bias is the bias at q, the spread
  zero is zero: the layer's formula.  Between the layers the reference computes the averaged neighbour features with
  the same host operations as the kernel's program.
-/
import proofs.«145893_j81011673137362_1_alg».proof.Proof.Gen.ReferenceIdeal.Run
import proofs.«145893_j81011673137362_1_alg».proof.Proof.SageLayer
import proofs.«145893_j81011673137362_1_alg».proof.Proof.LibPlainDot
import Idealize.ShloMosaic.Lib.Pipeline.Value

set_option maxRecDepth 16384

noncomputable section

namespace Cert.ReferenceIdeal.Net

open Cert.ReferenceIdeal Cert.ReferenceIdeal.Gen
open Idealize.ShloMosaic Idealize.ShloMosaic.TcCoe Idealize.ShloMosaic.ValueIdx Idealize.SL.Sem

/-- The averaged neighbour features of 100-wide node features, as the reference computes them. -/
def mean100 (h : FVec Ideal S100000x100 .f32) (src dst : IVec S800000 32) : FVec Ideal S100000x100 .f32 :=
  Host.divf (Host.scatterAdd scatter_S100000x100_S800000x1_S800000x100_1_0_0_1 (broadcastInDim S100000x100 ![] bcast_S_S100000x100 (constant S_ .f32 0x00000000#32)) (broadcastInDim S800000x1 ![0] bcast_S800000_S800000x1_0 dst) (Host.gather gather_S100000x100_S800000x1_S800000x100_1_0_n_n_0_1_1100 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 100000#32))) src)))) (broadcastInDim S100000x100 ![0, 1] bcast_S100000x1_S100000x100_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 dst) (broadcastInDim S800000 ![] bcast_S_S800000 (constant S_ .f32 0x3F800000#32))) (broadcastInDim S100000 ![] bcast_S_S100000 (constant S_ .f32 0x3F800000#32)))))

/-- The averaged neighbour features of 128-wide node features, as the reference computes them. -/
def mean128 (h : FVec Ideal S100000x128 .f32) (src dst : IVec S800000 32) : FVec Ideal S100000x128 .f32 :=
  Host.divf (Host.scatterAdd scatter_S100000x128_S800000x1_S800000x128_1_0_0_1 (broadcastInDim S100000x128 ![] bcast_S_S100000x128 (constant S_ .f32 0x00000000#32)) (broadcastInDim S800000x1 ![0] bcast_S800000_S800000x1_0 dst) (Host.gather gather_S100000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 100000#32))) src)))) (broadcastInDim S100000x128 ![0, 1] bcast_S100000x1_S100000x128_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 dst) (broadcastInDim S800000 ![] bcast_S_S800000 (constant S_ .f32 0x3F800000#32))) (broadcastInDim S100000 ![] bcast_S_S100000 (constant S_ .f32 0x3F800000#32)))))

/-! ## The pieces of a layer read at an entry -/

theorem plain100 : PlainDot.IsPlain dot_S100000x100_S100x128_S100000x128_1_0_0_1_n_n := ⟨rfl, rfl, rfl, rfl, rfl, rfl⟩
theorem plain128 : PlainDot.IsPlain dot_S100000x128_S128x128_S100000x128_1_0_0_1_n_n := ⟨rfl, rfl, rfl, rfl, rfl, rfl⟩
theorem plain47 : PlainDot.IsPlain dot_S100000x128_S128x47_S100000x47_1_0_0_1_n_n := ⟨rfl, rfl, rfl, rfl, rfl, rfl⟩

/-- A 128-long bias made a row and spread over all rows reads, at (p, q), the bias at q. -/
theorem bias128_apply (b : FVec Ideal S128 .f32) (p : Fin 100000) (q : Fin 128) :
    broadcastInDim S100000x128 ![0, 1] bcast_S1x128_S100000x128_0_1 (broadcastInDim S1x128 ![1] bcast_S128_S1x128_1 b) (ix2 p q) = b (ix1 q) :=
  (broadcastInDim_apply ![0, 1] bcast_S1x128_S100000x128_0_1 _ (ix2 p q) (ix2 (0 : Fin 1) q) (fun a => by
      match a with
      | ⟨0, _⟩ => rfl
      | ⟨1, _⟩ => rfl)).trans
    (broadcastInDim_apply ![1] bcast_S128_S1x128_1 b (ix2 (0 : Fin 1) q) (ix1 q) (fun a => by
      match a with
      | ⟨0, _⟩ => rfl))

/-- A 47-long bias made a row and spread over all rows reads, at (p, q), the bias at q. -/
theorem bias47_apply (b : FVec Ideal S47 .f32) (p : Fin 100000) (q : Fin 47) :
    broadcastInDim S100000x47 ![0, 1] bcast_S1x47_S100000x47_0_1 (broadcastInDim S1x47 ![1] bcast_S47_S1x47_1 b) (ix2 p q) = b (ix1 q) :=
  (broadcastInDim_apply ![0, 1] bcast_S1x47_S100000x47_0_1 _ (ix2 p q) (ix2 (0 : Fin 1) q) (fun a => by
      match a with
      | ⟨0, _⟩ => rfl
      | ⟨1, _⟩ => rfl)).trans
    (broadcastInDim_apply ![1] bcast_S47_S1x47_1 b (ix2 (0 : Fin 1) q) (ix1 q) (fun a => by
      match a with
      | ⟨0, _⟩ => rfl))

/-- The zero spread over the whole array reads zero everywhere. -/
theorem zero128_apply (j : S100000x128.Idx) :
    broadcastInDim S100000x128 ![] bcast_S_S100000x128 (constant (F := Ideal) S_ .f32 0x00000000#32) j = Ideal.ofBits .f32 0x00000000#32 :=
  broadcastInDim_apply ![] bcast_S_S100000x128 _ j ix0 (fun a => a.elim0)

/-! ## The three layers -/

/-- The first layer's host operations compute the layer's formula. -/
theorem first_layer (h a : FVec Ideal S100000x100 .f32) (ws wn : FVec Ideal S100x128 .f32) (b : FVec Ideal S128 .f32) :
    maximumf (addf (addf (Host.dotGeneral dot_S100000x100_S100x128_S100000x128_1_0_0_1_n_n none h ws) (Host.dotGeneral dot_S100000x100_S100x128_S100000x128_1_0_0_1_n_n none a wn)) (broadcastInDim S100000x128 ![0, 1] bcast_S1x128_S100000x128_0_1 (broadcastInDim S1x128 ![1] bcast_S128_S1x128_1 b))) (broadcastInDim S100000x128 ![] bcast_S_S100000x128 (constant S_ .f32 0x00000000#32))
      = SageLayer.hidden h a ws wn b := by
  funext j
  obtain ⟨p, q, rfl⟩ : ∃ (p : Fin 100000) (q : Fin 128), j = ix2 p q := ⟨j 0, j 1, eq_ix2 j⟩
  simp only [SageLayer.hidden_apply, maximumf_apply, addf_apply, Host.dotGeneral, PlainDot.dotGeneral_apply plain100]
  rw [bias128_apply, zero128_apply]
  rfl

/-- The second layer's host operations compute the layer's formula. -/
theorem second_layer (h a : FVec Ideal S100000x128 .f32) (ws wn : FVec Ideal S128x128 .f32) (b : FVec Ideal S128 .f32) :
    maximumf (addf (addf (Host.dotGeneral dot_S100000x128_S128x128_S100000x128_1_0_0_1_n_n none h ws) (Host.dotGeneral dot_S100000x128_S128x128_S100000x128_1_0_0_1_n_n none a wn)) (broadcastInDim S100000x128 ![0, 1] bcast_S1x128_S100000x128_0_1 (broadcastInDim S1x128 ![1] bcast_S128_S1x128_1 b))) (broadcastInDim S100000x128 ![] bcast_S_S100000x128 (constant S_ .f32 0x00000000#32))
      = SageLayer.hidden h a ws wn b := by
  funext j
  obtain ⟨p, q, rfl⟩ : ∃ (p : Fin 100000) (q : Fin 128), j = ix2 p q := ⟨j 0, j 1, eq_ix2 j⟩
  simp only [SageLayer.hidden_apply, maximumf_apply, addf_apply, Host.dotGeneral, PlainDot.dotGeneral_apply plain128]
  rw [bias128_apply, zero128_apply]
  rfl

/-- The last layer's host operations compute the layer's formula, without the cut-off. -/
theorem last_layer (h a : FVec Ideal S100000x128 .f32) (ws wn : FVec Ideal S128x47 .f32) (b : FVec Ideal S47 .f32) :
    addf (addf (Host.dotGeneral dot_S100000x128_S128x47_S100000x47_1_0_0_1_n_n none h ws) (Host.dotGeneral dot_S100000x128_S128x47_S100000x47_1_0_0_1_n_n none a wn)) (broadcastInDim S100000x47 ![0, 1] bcast_S1x47_S100000x47_0_1 (broadcastInDim S1x47 ![1] bcast_S47_S1x47_1 b))
      = SageLayer.affine h a ws wn b := by
  funext j
  obtain ⟨p, q, rfl⟩ : ∃ (p : Fin 100000) (q : Fin 47), j = ix2 p q := ⟨j 0, j 1, eq_ix2 j⟩
  simp only [SageLayer.affine_apply, addf_apply, Host.dotGeneral, PlainDot.dotGeneral_apply plain47]
  rw [bias47_apply]
  rfl

/-! ## The run's result -/

variable (m : (ℓ : Loc nD τ sig) → Buf (Elt Ideal) ℓ)

/-- The first layer of the arguments. -/
def layer1 (c : Dev nD) : FVec Ideal S100000x128 .f32 :=
  SageLayer.hidden (m ((c.tc : Thread nD τ).loc main_arg0))
    (mean100 (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5))

/-- The second layer of the arguments. -/
def layer2 (c : Dev nD) : FVec Ideal S100000x128 .f32 :=
  SageLayer.hidden (layer1 m c)
    (mean128 (layer1 m c) (m ((c.tc : Thread nD τ).loc main_arg1)) (m ((c.tc : Thread nD τ).loc main_arg2)))
    (m ((c.tc : Thread nD τ).loc main_arg6)) (m ((c.tc : Thread nD τ).loc main_arg7)) (m ((c.tc : Thread nD τ).loc main_arg8))

/-- The network's output: the last layer of the second layer. -/
def output (c : Dev nD) : FVec Ideal S100000x47 .f32 :=
  SageLayer.affine (layer2 m c)
    (mean128 (layer2 m c) (m ((c.tc : Thread nD τ).loc main_arg1)) (m ((c.tc : Thread nD τ).loc main_arg2)))
    (m ((c.tc : Thread nD τ).loc main_arg9)) (m ((c.tc : Thread nD τ).loc main_arg10)) (m ((c.tc : Thread nD τ).loc main_arg11))

/-- THE RUN'S RESULT TERM is the network's output of the arguments. -/
theorem result (c : Dev nD) : Value.res_main_v76 (F := Ideal) m c = output m c := by
  unfold Value.res_main_v76
  rw [first_layer, second_layer, last_layer]
  rfl

end Cert.ReferenceIdeal.Net

end
-- ==== Proof.Bridge.lean ====
/-
  The two programs compute one function of their arguments.

  Both results are the same three layers, and between the layers both programs average the neighbours' features with
  the same host operations: a gather at the source indices, a sum by destination index, a division by the number of
  arriving edges.  The operations' dimension records are stated once per program, with the same numbers, so the two
  averaging functions are one function; with that, the reference's output of arguments that agree with the kernel's
  is the kernel's output.
-/
import proofs.«145893_j81011673137362_1_alg».proof.Defs
import proofs.«145893_j81011673137362_1_alg».proof.Proof.KernelNet
import proofs.«145893_j81011673137362_1_alg».proof.Proof.RefNet

set_option maxRecDepth 16384

noncomputable section

namespace Cert.Bridge

open Idealize.ShloMosaic Idealize.ShloMosaic.TcCoe Idealize.SL.Sem

/-- Averaging 100-wide features is the same function in both programs. -/
theorem mean100_eq : Cert.ReferenceIdeal.Net.mean100 = Cert.KernelIdeal.Net.mean100 := rfl

/-- Averaging 128-wide features is the same function in both programs. -/
theorem mean128_eq : Cert.ReferenceIdeal.Net.mean128 = Cert.KernelIdeal.Net.mean128 := rfl

/-- The reference's output of arguments that agree with the kernel's is the kernel's output. -/
theorem output_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Net.output m' c = Cert.KernelIdeal.Net.output m c := by
  unfold Cert.ReferenceIdeal.Net.output Cert.ReferenceIdeal.Net.layer2 Cert.ReferenceIdeal.Net.layer1
  rw [e0, e1, e2, e3, e4, e5, e6, e7, e8, e9, e10, e11, mean100_eq, mean128_eq]
  rfl

end Cert.Bridge

end
-- ==== Proof.lean ====
/-
  A three-layer graph network: its blocked kernel program against the whole-array reference.

  Every layer takes the node features h, averages each node's in-neighbours' features (host operations, the same in
  both programs), and returns h · Ws + mean · Wn + b, cut off below at zero in the first two layers.  The kernel
  program computes each layer in a region of 50 row blocks with two matrix products per block; the reference with two
  matrix products of the whole arrays.  Over the extended reals a matrix product is, entry by entry, the finite sum
  over the contracted index, the same sum whether it is taken block by block or at once; so the two programs compute
  one function of their arguments, and no finiteness of the inputs is used.

  * the two kernel programs' frames are the generated frame certificates;
  * the reference's frame is its generated run with the result forgotten;
  * the idealization rewrote nothing, so there is nothing to preserve;
  * for the equivalence, the kernel program's run is posted with its result array read off the last region's output
    (the launch called again with that conjunct) and read back through the three regions and the host stretches
    between them as three layers of the arguments; the reference's run states its result as one composed term, which
    is the same three layers.
-/
import proofs.«145893_j81011673137362_1_alg».proof.Defs
import proofs.«145893_j81011673137362_1_alg».proof.Proof.Gen.Kernel
import proofs.«145893_j81011673137362_1_alg».proof.Proof.Gen.Kernel.Skeleton
import proofs.«145893_j81011673137362_1_alg».proof.Proof.Gen.Kernel.Launch
import proofs.«145893_j81011673137362_1_alg».proof.Proof.Gen.Kernel.Points
import proofs.«145893_j81011673137362_1_alg».proof.Proof.Gen.Kernel.Frame
import proofs.«145893_j81011673137362_1_alg».proof.Proof.Gen.KernelIdeal
import proofs.«145893_j81011673137362_1_alg».proof.Proof.Gen.KernelIdeal.Skeleton
import proofs.«145893_j81011673137362_1_alg».proof.Proof.Gen.KernelIdeal.Launch
import proofs.«145893_j81011673137362_1_alg».proof.Proof.Gen.KernelIdeal.Points
import proofs.«145893_j81011673137362_1_alg».proof.Proof.Gen.KernelIdeal.Frame
import proofs.«145893_j81011673137362_1_alg».proof.Proof.Gen.ReferenceIdeal
import proofs.«145893_j81011673137362_1_alg».proof.Proof.Gen.ReferenceIdeal.Run
import proofs.«145893_j81011673137362_1_alg».proof.Proof.Gen.Pre_finite_inputs
import proofs.«145893_j81011673137362_1_alg».proof.Proof.LaunchResult
import proofs.«145893_j81011673137362_1_alg».proof.Proof.KernelNet
import proofs.«145893_j81011673137362_1_alg».proof.Proof.RefNet
import proofs.«145893_j81011673137362_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the same result array: three layers of the arguments. -/
theorem algebraic : Cert.algebraic_KernelIdeal_ReferenceIdeal := by
  intro m ρ m' ρ' _ hagree
  refine ⟨fun c => Cert.KernelIdeal.Net.output m c, ?_, ?_⟩
  · exact (θ_run Cert.KernelIdeal.defs _ _).mono
      (fun r h c => ⟨(h c).1.trans (Cert.KernelIdeal.Net.result m ρ c), (h c).2⟩)
      (Cert.KernelIdeal.Launch.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    exact (Cert.ReferenceIdeal.Net.result m' c).trans
      (Cert.Bridge.output_eq m m' c e0 e1 e2 e3 e4 e5 e6 e7 e8 e9 e10 e11)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
